-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024 : Shape := ⟨1, ![1024]⟩
abbrev S16384x2048 : Shape := ⟨2, ![16384, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S1024x2048 .f32) (main_arg1 : IVec S1024 32) (main_arg2 : FVec F S16384x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S16384x2048 .f32 := Host.absf main_arg2
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S1024x2048 : Shape := ⟨2, ![1024, 2048]⟩
abbrev S1024 : Shape := ⟨1, ![1024]⟩
abbrev S16384x2048 : Shape := ⟨2, ![16384, 2048]⟩
abbrev S_ : Shape := ⟨0, ![]⟩
abbrev S1024x1 : Shape := ⟨2, ![1024, 1]⟩
abbrev S1024x16384 : Shape := ⟨2, ![1024, 16384]⟩
abbrev S1024x1024 : Shape := ⟨2, ![1024, 1024]⟩

abbrev nBuf : Space → Nat
  | .hbm => 15
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S16384x2048, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x2048, .f32⟩
  | .hbm, ⟨12, _⟩ => ⟨S1024x2048, .f32⟩
  | .hbm, ⟨13, _⟩ => ⟨S1024x2048, .bf16⟩
  | .hbm, ⟨14, _⟩ => ⟨S1024x16384, .f32⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S1024x1024, .f32⟩
  | .local _ .vmem, ⟨4, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .bf16 = 32 ∨ (Rect.block (s := S1024x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x16384.size a
  hwx0_2 : ∀ i : grid0.Coords, EltTy.bits .f32 = 32 ∨ (Rect.block (s := S1024x16384) S1024x1024.size (cc0_transform_2 i) (hinb0_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v8) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024 : Shape := ⟨1, ![1024]⟩
abbrev S16384x2048 : Shape := ⟨2, ![16384, 2048]⟩
abbrev S_ : Shape := ⟨0, ![]⟩
abbrev S1024x1 : Shape := ⟨2, ![1024, 1]⟩
abbrev S2048x16384 : Shape := ⟨2, ![2048, 16384]⟩
abbrev S1024x16384 : Shape := ⟨2, ![1024, 16384]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S16384x2048, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x2048, .f32⟩
  | .hbm, ⟨12, _⟩ => ⟨S1024x2048, .f32⟩
  | .hbm, ⟨13, _⟩ => ⟨S2048x16384, .f32⟩
  | .hbm, ⟨14, _⟩ => ⟨S1024x16384, .f32⟩
  | .hbm, ⟨15, _⟩ => ⟨S_, .f32⟩
  | .hbm, ⟨16, _⟩ => ⟨S1024x16384, .f32⟩
  | .hbm, ⟨17, _⟩ => ⟨S1024x16384, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  transposes_S16384x2048_S2048x16384_1_0 : S16384x2048.Transposes [1, 0] S2048x16384
  bcast_S_S1024x16384 : S_.BroadcastsInDim S1024x16384 (![] : Fin 0 → Fin S1024x16384.rank)
  dot_S1024x2048_S2048x16384_S1024x16384_1_0_0_1_n_n_wf : DotDims.WF S1024x2048 S2048x16384 S1024x16384 [1] [0] [0] [1] [] []

variable [Facts₀]

def dot_S1024x2048_S2048x16384_S1024x16384_1_0_0_1_n_n : DotDims S1024x2048 S2048x16384 S1024x16384 where
  lhsContracting := [1]
  rhsContracting := [0]
  lhsNonContracting := [0]
  rhsNonContracting := [1]
  lhsBatch := []
  rhsBatch := []
  wf := dot_S1024x2048_S2048x16384_S1024x16384_1_0_0_1_n_n_wf

class Facts : Prop extends Facts₀ where

variable [Facts]
-- ==== Proof.Spec.lean ====
/-
  The mathematics both programs compute, stated once and free of either program.

  Rows `xn` of a [1024, 2048] table are compared with the 16384 rows of a bank [16384, 2048]: entry (b, n) of
  the result is the inner product of row b of `xn` with row n of the bank, divided by a temperature.  The
  temperature is the single-precision word 0x3D4CCCCD, which denotes the rational 13421773 / 2^28; dividing an
  extended real by that nonzero real is multiplying by its reciprocal 2^28 / 13421773, on all of the extended
  reals (no finiteness is needed).  The table is stated in the product form.
-/
import Idealize.ShloMosaic.PureOps.Ideal
import Idealize.ShloMosaic.Lib.ValueIdx

noncomputable section

namespace Cert.ClusterSim

open Idealize.ShloMosaic Idealize.ShloMosaic.ValueIdx

/-- The temperature's single-precision word denotes 13421773 / 2^28 (sign 0, exponent 122, fraction 5033165). -/
theorem temp_word : Ideal.ofBits .f32 0x3D4CCCCD#32 = ((13421773 / 268435456 : ℝ) : EReal) := by
  simp [Ideal.ofBits, Ideal.ieee, -EReal.coe_mul]; norm_num

/-- The reciprocal of the temperature, as a real. -/
theorem inv_temp_real : (1 / (13421773 / 268435456 : ℝ)) = (268435456 / 13421773 : ℝ) := by norm_num

/-- Dividing by the temperature is multiplying by its reciprocal, for every extended real. -/
theorem div_temp (s : EReal) :
    Ideal.div s (Ideal.ofBits .f32 0x3D4CCCCD#32) = s * ((268435456 / 13421773 : ℝ) : EReal) := by
  rw [temp_word, Ideal.div_coe (by norm_num : (13421773 / 268435456 : ℝ) ≠ 0), inv_temp_real]

/-- The similarity table: entry (b, n) is the inner product over the 2048 columns of row b of `xn` and row n of
    the bank, times the reciprocal of the temperature. -/
def simTable (xn : (⟨2, ![1024, 2048]⟩ : Shape).Idx → EReal) (bank : (⟨2, ![16384, 2048]⟩ : Shape).Idx → EReal) :
    (⟨2, ![1024, 16384]⟩ : Shape).Idx → EReal :=
  fun i => (∑ k : Fin 2048, xn (ix2 (i 0) k) * bank (ix2 (i 1) k)) * ((268435456 / 13421773 : ℝ) : EReal)

theorem simTable_apply (xn : (⟨2, ![1024, 2048]⟩ : Shape).Idx → EReal) (bank : (⟨2, ![16384, 2048]⟩ : Shape).Idx → EReal)
    (b : Fin 1024) (n : Fin 16384) :
    simTable xn bank (ix2 b n) = (∑ k : Fin 2048, xn (ix2 b k) * bank (ix2 n k)) * ((268435456 / 13421773 : ℝ) : EReal) := rfl

end Cert.ClusterSim

end
-- ==== Proof.RefTable.lean ====
/-
  The reference's result is the similarity table of its own normalized rows against the bank.

  Its last stage divides, entry by entry, the product of the normalized rows with the TRANSPOSED bank by the
  temperature.  Entry (b, n) of that product is the sum over the 2048 columns k of (normalized row b at k) times
  (transposed bank at (k, n)), and the transposed bank at (k, n) is the bank at (n, k): the inner product of row b
  with bank row n.  Dividing by the temperature is multiplying by its reciprocal.
-/
import proofs.«405837_j30279519437290_3_alg».proof.Proof.Gen.ReferenceIdeal.Read
import proofs.«405837_j30279519437290_3_alg».proof.Proof.Spec

noncomputable section

namespace Cert.ReferenceIdeal.Table

open Cert.ReferenceIdeal Cert.ReferenceIdeal.Read Idealize.ShloMosaic Idealize.ShloMosaic.ValueIdx Cert.ClusterSim

/-- The rows of the first argument, each divided by the larger of its Euclidean norm and the floor 1e-12: the
    stage the reference feeds to its matrix product. -/
abbrev normRows (x0 : (⟨S1024x2048, .f32⟩ : BufTy).Contents (Elt Ideal)) : (⟨S1024x2048, .f32⟩ : BufTy).Contents (Elt Ideal) :=
  val_main_v7 (F := Ideal) x0

/-- The reference's result, index by index, is the similarity table of the normalized rows and the bank. -/
theorem result_eq (x0 : (⟨S1024x2048, .f32⟩ : BufTy).Contents (Elt Ideal)) (x2 : (⟨S16384x2048, .f32⟩ : BufTy).Contents (Elt Ideal)) :
    val_main_v11 (F := Ideal) x0 x2 = simTable (normRows x0) x2 := by
  funext i
  have el : ∀ k : Fin 2048, lidx_main_v9 i k = ix2 (i 0) k := fun k =>
    funext fun a => Fin.ext (by match a with | ⟨0, _⟩ => rfl | ⟨1, _⟩ => rfl)
  have er : ∀ k : Fin 2048, idx_main_v8 (ridx_main_v9 i k) = ix2 (i 1) k := fun k =>
    funext fun a => Fin.ext (by match a with | ⟨0, _⟩ => rfl | ⟨1, _⟩ => rfl)
  rw [val_main_v11_apply, val_main_v9_apply, val_main_v10_apply, val_main_cst_1_apply]
  simp only [val_main_v8_apply, el, er]
  exact div_temp _

end Cert.ReferenceIdeal.Table

end
-- ==== Proof.Payload.lean ====
/-
  The kernel body's arithmetic at one entry of its output block.

  At a grid point the body holds the whole table of normalized rows, x0 : [1024, 2048], and one block of 1024 bank
  rows, x1 : [1024, 2048].  It contracts the two over their second axes into a zero accumulator, so entry (p, q) of
  the product is the sum over the 2048 columns k of x0 (p, k) · x1 (q, k): the inner product of row p of x0 with
  row q of x1.  (Narrowing x1 to half precision and re-casting x0 to its own shape change nothing over the
  extended reals.)  Every entry is then multiplied by one scalar, the named reciprocal of the temperature, which
  over the extended reals is the rational 268435456 / 13421773.
-/
import proofs.«405837_j30279519437290_3_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx

/-- The named scalar is the reciprocal of the temperature: the rational the table of named constants gives it. -/
theorem inv_temp :
    Named.named (F := Ideal) κ "inv_temp" (φ := .f32) 0x41A00000#32 = ((268435456 / 13421773 : ℝ) : EReal) :=
  IdealRules.named_const.ideal_named_scalar _ _ _ _ rfl

/-! The contraction's operand indices, axis by axis: the left operand is read at (output row, k), the right operand
    at (output column, k). -/

theorem lhs_axis0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_axis1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_axis0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_axis1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- Entry (p, q) of the contraction of x0 and x1 over their second axes, into a zero accumulator, is the inner
    product of row p of x0 with row q of x1. -/
theorem contraction_apply (x0 x1 : S1024x2048.Idx → EReal) (p q : Fin 1024) :
    matmul (F := Ideal) (φ₁ := .bf16) (φ₂ := .bf16) dot_S1024x2048_S1024x2048_S1024x1024_1_1_0_0_n_n none x0 x1
        (constant S1024x1024 .f32 0x00000000#32) (ix2 p q)
      = ∑ k : Fin 2048, x0 (ix2 p k) * x1 (ix2 q k) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-- The body's stored value at entry (p, q): the inner product of row p of x0 with row q of x1, times the
    reciprocal of the temperature. -/
theorem payload_apply (x0 x1 : S1024x2048.Idx → EReal) (p q : Fin 1024) :
    k0_pay1 (F := Ideal) x0 x1 (ix2 p q)
      = (∑ k : Fin 2048, x0 (ix2 p k) * x1 (ix2 q k)) * ((268435456 / 13421773 : ℝ) : EReal) := by
  unfold k0_pay1
  rw [mulf_apply, broadcast_apply, inv_temp, shapeCast_self]
  exact congrArg (· * ((268435456 / 13421773 : ℝ) : EReal)) (contraction_apply x0 x1 p q)

end Cert.KernelIdeal.Payload

end
-- ==== Proof.Operand.lean ====
/-
  What the region finds in its first operand.

  Before the region the program normalizes the rows of its first argument on the host: it squares the entries, sums
  each row, takes the square root, takes the larger of that norm and the floor 1e-12, and divides the row by it; a
  last host operation narrows the quotient to half precision, which over the extended reals changes nothing.  These
  are, operation for operation and literal for literal, the host operations by which the reference computes the
  stage it feeds to its matrix product, so the two values are the same function of the first argument.
-/
import proofs.«405837_j30279519437290_3_alg».proof.Proof.Gen.KernelIdeal.Frame
import proofs.«405837_j30279519437290_3_alg».proof.Proof.RefTable
import Idealize.ShloMosaic.Lib.StableHlo.Run

noncomputable section

namespace Cert.KernelIdeal.Operand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array the region's first window stages is the normalized rows of the first argument. -/
theorem normalized (c : Dev nD) :
    (V m c main_v8 : S1024x2048.Idx → EReal)
      = Cert.ReferenceIdeal.Table.normRows (m ((c : Thread nD τ).loc main_arg0)) := by
  dsimp only [Gen.V, Gen.hostOps0]
  after_results
  rfl

end Cert.KernelIdeal.Operand

end
-- ==== Proof.KernelTable.lean ====
/-
  From the blocks the grid points write to the whole result array.

  The grid has 16 points.  Point t holds the whole table of normalized rows (block (0, 0) of its array, the same at
  every point), bank rows t·1024 … t·1024 + 1023 (block (t, 0) of the bank) and writes columns t·1024 … t·1024 + 1023
  of the result (block (0, t)).  Entry (p, q) of what it writes is the inner product of normalized row p with bank
  row t·1024 + q, times the reciprocal of the temperature: entry (p, t·1024 + q) of the similarity table.  So every
  point writes its own block of ONE table; the 16 column blocks cover all 16384 columns (column n lies in the block
  of point n / 1024), hence the array ends holding the table.
-/
import proofs.«405837_j30279519437290_3_alg».proof.Proof.Gen.KernelIdeal.Value
import proofs.«405837_j30279519437290_3_alg».proof.Proof.Payload
import proofs.«405837_j30279519437290_3_alg».proof.Proof.Spec

noncomputable section

namespace Cert.KernelIdeal.Table

open Cert.KernelIdeal Cert.KernelIdeal.Gen Idealize.ShloMosaic Idealize.ShloMosaic.TcCoe Idealize.SL.Sem
open Idealize.ShloMosaic.ValueIdx Cert.ClusterSim
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the grid: the normalized rows' block never moves, the bank's block index is the
    point's number along the rows, the result's block index is the point's number along the columns. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What point t writes back is block t of the similarity table of the two arrays the region stages. -/
theorem written_block (c : Dev nD) (t : Fin cfg0.N) :
    (dats m 0 c).flushed 2 t
      = ((cfg0.win 2).blk t).view.read (Elt Ideal) (simTable (V m c main_v8) (V m c main_arg2)) := by
  rw [Cert.KernelIdeal.Value.flushed2]
  unfold out0_2
  rw [View.canon_unit_zero origin]
  simp only [View.ld_unit_zero (S := S1024x2048) origin]
  obtain ⟨e0, e1, e2, e3, e4, e5⟩ := block_indices t
  funext j
  obtain ⟨p, q, rfl⟩ : ∃ (p : Fin 1024) (q : Fin 1024), j = ix2 p q := ⟨j 0, j 1, eq_ix2 j⟩
  show k0_pay1 (F := Ideal) (iblk m c 0 t) (iblk m c 1 t) (ix2 p q)
    = simTable (V m c main_v8) (V m c main_arg2) (((cfg0.win 2).blk t).view.emb (ix2 p q))
  refine (Cert.KernelIdeal.Payload.payload_apply (iblk m c 0 t) (iblk m c 1 t) p q).trans ?_
  refine congrArg (· * ((268435456 / 13421773 : ℝ) : EReal)) (Finset.sum_congr rfl fun k _ => ?_)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 2048 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 2048 + 1 * k.val = k.val; omega
  refine congrArg₂ (fun a b : EReal => a * b) ?_ ?_
  · show V m c main_v8 (((cfg0.win 0).blk t).view.emb (ix2 p k)) = V m c main_v8 (ix2 ((((cfg0.win 2).blk t).view.emb (ix2 p q)) 0) k)
    exact congrArg (V m c main_v8) h0
  · show V m c main_arg2 (((cfg0.win 1).blk t).view.emb (ix2 q k)) = V m c main_arg2 (ix2 ((((cfg0.win 2).blk t).view.emb (ix2 p q)) 1) k)
    exact congrArg (V m c main_arg2) h1

/-- An index of the result lies in point t's block iff each coordinate lies in the block's range on its axis. -/
theorem mem_block (t : Fin cfg0.N) (i : S1024x16384.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v9).slice (win0_2.rect t)).set ↔ _
  rw [View.set_slice_whole, Rect.mem_set_unit]
  exact Iff.rfl

/-- Every index of the result lies in the block of the point numbered by its column divided by 1024. -/
theorem covered (i : S1024x16384.Idx) :
    ∃ t : Fin cfg0.N, (cfg0.win 2).flush t = true ∧ i ∈ ((cfg0.win 2).blk t).view.set := by
  have hi0 : (i 0).val < 1024 := (i 0).isLt
  have hi1 : (i 1).val < 16384 := (i 1).isLt
  have hN : cfg0.N = 16 := N_0
  obtain ⟨t, ht⟩ : ∃ t : Fin cfg0.N, t.val = (i 1).val / 1024 := ⟨⟨(i 1).val / 1024, by omega⟩, rfl⟩
  obtain ⟨-, -, -, -, e4, e5⟩ := block_indices t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the region is the similarity table of the two arrays the region stages. -/
theorem final (c : Dev nD) :
    (dats m 0 c).arrAt 2 cfg0.N = simTable (V m c main_v8) (V m c main_arg2) :=
  (dats m 0 c).arrAt_eq_of_cover 2 (simTable (V m c main_v8) (V m c main_arg2)) (fun t _ => written_block m c t) covered

end Cert.KernelIdeal.Table

end
-- ==== Proof.lean ====
/-
  A table of cosine similarities divided by a temperature: the kernel against its reference, over the extended reals.

  Both programs normalize the 1024 rows of the first argument on the host, by the same operations and the same
  literals (each row divided by the larger of its Euclidean norm and 1e-12).  The reference multiplies the
  normalized rows with the transposed bank [16384, 2048] and divides every entry by the temperature, the
  single-precision word 0x3D4CCCCD = 13421773 / 2^28.  The kernel walks the bank in 16 blocks of 1024 rows, at each
  block contracts the normalized rows with the block's rows over the 2048 columns, and multiplies by one scalar, the
  reciprocal of the temperature, named so in the table of named constants: 2^28 / 13421773.  Entry (b, n) of either
  result is therefore the inner product of normalized row b with bank row n, times 2^28 / 13421773 — dividing an
  extended real by a nonzero real IS multiplying by its reciprocal, at the infinities too, so the finiteness of the
  inputs is never used.  The second argument (integer labels) is read by neither program.

  The modules: Spec (the table as one function, and the law for the temperature), RefTable (the reference's last
  stage is that table), Payload (the kernel body's value at one entry), KernelTable (the 16 written blocks are the
  blocks of that table and cover the array), Operand (the region's first operand is the reference's normalized
  rows).  Here: the two runs re-posted at the same table, the three frames, and the named constant's statement.
-/
import proofs.«405837_j30279519437290_3_alg».proof.Defs
import proofs.«405837_j30279519437290_3_alg».proof.Proof.Gen.Kernel
import proofs.«405837_j30279519437290_3_alg».proof.Proof.Gen.Kernel.Skeleton
import proofs.«405837_j30279519437290_3_alg».proof.Proof.Gen.Kernel.Launch
import proofs.«405837_j30279519437290_3_alg».proof.Proof.Gen.Kernel.Points
import proofs.«405837_j30279519437290_3_alg».proof.Proof.Gen.Kernel.Frame
import proofs.«405837_j30279519437290_3_alg».proof.Proof.Gen.KernelIdeal
import proofs.«405837_j30279519437290_3_alg».proof.Proof.Gen.KernelIdeal.Skeleton
import proofs.«405837_j30279519437290_3_alg».proof.Proof.Gen.KernelIdeal.Launch
import proofs.«405837_j30279519437290_3_alg».proof.Proof.Gen.KernelIdeal.Points
import proofs.«405837_j30279519437290_3_alg».proof.Proof.Gen.KernelIdeal.Frame
import proofs.«405837_j30279519437290_3_alg».proof.Proof.Gen.ReferenceIdeal
import proofs.«405837_j30279519437290_3_alg».proof.Proof.Gen.Pre_finite_inputs
import proofs.«405837_j30279519437290_3_alg».proof.Proof.Gen.KernelIdeal.Value
import proofs.«405837_j30279519437290_3_alg».proof.Proof.Gen.ReferenceIdeal.Run
import proofs.«405837_j30279519437290_3_alg».proof.Proof.Gen.ReferenceIdeal.Read
import proofs.«405837_j30279519437290_3_alg».proof.Proof.Spec
import proofs.«405837_j30279519437290_3_alg».proof.Proof.RefTable
import proofs.«405837_j30279519437290_3_alg».proof.Proof.Payload
import proofs.«405837_j30279519437290_3_alg».proof.Proof.Operand
import proofs.«405837_j30279519437290_3_alg».proof.Proof.KernelTable
import Idealize.ShloMosaic.Adequacy
import Idealize.ShloMosaic.Init

noncomputable section

namespace Cert.Proof

open Idealize.ShloMosaic Idealize.ShloMosaic.TcCoe Idealize.SL.Sem Cert.ClusterSim

/-- The kernel's run, re-posted: its result array ends at the similarity table of the normalized rows of the first
    argument and the bank, and the arguments are unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v9)
          = simTable (Cert.ReferenceIdeal.Table.normRows (m ((c : Thread Cert.KernelIdeal.nD Cert.KernelIdeal.τ).loc Cert.KernelIdeal.main_arg0)))
              (m ((c : Thread Cert.KernelIdeal.nD Cert.KernelIdeal.τ).loc Cert.KernelIdeal.main_arg2))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2) :=
  (θ_run Cert.KernelIdeal.defs _ _).mono
    (fun r h c => ⟨(h c).1.trans (by
        rw [Cert.KernelIdeal.Table.final m c, Cert.KernelIdeal.Operand.normalized m c, Cert.KernelIdeal.Gen.V_main_arg2 m c]),
      (h c).2⟩)
    (Cert.KernelIdeal.Value.run_blocks (F := Ideal) m ρ)

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the scalar 20.0 of the kernel body is named the reciprocal of the
    temperature, 2^28 / 13421773, the value the table of named constants gives the name. -/
theorem preserves : Cert.preserves_Kernel_KernelIdeal :=
  IdealRules.named_const.statement Cert.KernelIdeal.κ "inv_temp" .f32 0x41A00000#32 ((268435456 / 13421773 : ℝ) : EReal) rfl

/-- From memories that agree on the arguments both programs end with the similarity table of the same normalized
    rows and the same bank. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Table.result_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
